-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x256 : Shape := ⟨3, ![16, 4096, 256]⟩
abbrev S512x256 : Shape := ⟨2, ![512, 256]⟩
abbrev S128 : Shape := ⟨1, ![128]⟩
abbrev S_ : Shape := ⟨0, ![]⟩

class Facts : Prop where
  bcast_S_S16x4096x256 : S_.BroadcastsInDim S16x4096x256 (![] : Fin 0 → Fin S16x4096x256.rank)
  reducesTo_S16x4096x256_S_d0_1_2 : S16x4096x256.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S16x4096x256 .f32) (main_arg1 : FVec F S512x256 .f32) (main_arg2 : FVec F S128 .f32) (main_arg3 : FVec F S128 .f32) : IVec S_ 1 :=
  let main_v0 : FVec F S16x4096x256 .f32 := Host.absf main_arg0
  let main_cst : FVec F S_ .f32 := constant S_ .f32 0x7F800000#32
  let main_v1 : FVec F S16x4096x256 .f32 := broadcastInDim S16x4096x256 ![] bcast_S_S16x4096x256 main_cst
  let main_v2 : IVec S16x4096x256 1 := cmpf .olt main_v0 main_v1
  let main_c : IVec S_ 1 := constantI S_ 1 1#1
  let main_v3 : IVec S_ 1 := (fun x v => Host.reduce IntOp.andi x v reducesTo_S16x4096x256_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S16x4096x256 : Shape := ⟨3, ![16, 4096, 256]⟩
abbrev S512x256 : Shape := ⟨2, ![512, 256]⟩
abbrev S128 : Shape := ⟨1, ![128]⟩
abbrev S16x128x128x128 : Shape := ⟨4, ![16, 128, 128, 128]⟩
abbrev S1x1024x256 : Shape := ⟨3, ![1, 1024, 256]⟩
abbrev S1x32x128x128 : Shape := ⟨4, ![1, 32, 128, 128]⟩
abbrev S1024x256 : Shape := ⟨2, ![1024, 256]⟩
abbrev S1024x512 : Shape := ⟨2, ![1024, 512]⟩
abbrev S1024x128 : Shape := ⟨2, ![1024, 128]⟩
abbrev S16x64x128 : Shape := ⟨3, ![16, 64, 128]⟩
abbrev S16x64x1x128 : Shape := ⟨4, ![16, 64, 1, 128]⟩
abbrev S16x64x2x128 : Shape := ⟨4, ![16, 64, 2, 128]⟩
abbrev S16x128x128 : Shape := ⟨3, ![16, 128, 128]⟩
abbrev S16x1x128x128 : Shape := ⟨4, ![16, 1, 128, 128]⟩
abbrev S16x2x128x128 : Shape := ⟨4, ![16, 2, 128, 128]⟩
abbrev S32x128x128 : Shape := ⟨3, ![32, 128, 128]⟩
abbrev S32x128 : Shape := ⟨2, ![32, 128]⟩
abbrev S32x128x1 : Shape := ⟨3, ![32, 128, 1]⟩
abbrev S1x1x128 : Shape := ⟨3, ![1, 1, 128]⟩
abbrev S16x16384x128 : Shape := ⟨3, ![16, 16384, 128]⟩

abbrev nBuf : Space → Nat
  | .hbm => 6
  | .vmem => 7
  | .smem => 0
  | _ => 0

abbrev bufTy : (tb : Table) → Fin (tcTables nBuf tb) → BufTy
  | .hbm, ⟨0, _⟩ => ⟨S16x4096x256, .f32⟩
  | .hbm, ⟨1, _⟩ => ⟨S512x256, .f32⟩
  | .hbm, ⟨2, _⟩ => ⟨S128, .f32⟩
  | .hbm, ⟨3, _⟩ => ⟨S128, .f32⟩
  | .hbm, ⟨4, _⟩ => ⟨S16x128x128x128, .f32⟩
  | .hbm, ⟨5, _⟩ => ⟨S16x16384x128, .f32⟩
  | .local _ .vmem, ⟨0, _⟩ => ⟨S1x1024x256, .f32⟩
  | .local _ .vmem, ⟨1, _⟩ => ⟨S1x1024x256, .f32⟩
  | .local _ .vmem, ⟨2, _⟩ => ⟨S512x256, .f32⟩
  | .local _ .vmem, ⟨3, _⟩ => ⟨S128, .f32⟩
  | .local _ .vmem, ⟨4, _⟩ => ⟨S128, .f32⟩
  | .local _ .vmem, ⟨5, _⟩ => ⟨S1x32x128x128, .f32⟩
  | .local _ .vmem, ⟨6, _⟩ => ⟨S1x32x128x128, .f32⟩
  | _, _ => ⟨S16x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x32x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  inb_S512x256_S512x256_0_0 : ∀ a, (![0, 0] : Fin 2 → Nat) a + S512x256.size a ≤ S512x256.size a
  h_S512x256 : 0 < S512x256.numel
  bitsLt_bf16_f32 : FTy.bits .bf16 < FTy.bits .f32
  slices_S1024x512_o0_0_S1024x128 : S1024x512.Slices ![0, 0] S1024x128
  slices_S1024x512_o0_128_S1024x128 : S1024x512.Slices ![0, 128] S1024x128
  slices_S1024x512_o0_256_S1024x128 : S1024x512.Slices ![0, 256] S1024x128
  slices_S1024x512_o0_384_S1024x128 : S1024x512.Slices ![0, 384] S1024x128
  shapeCasts_S1024x128_S16x64x128 : S1024x128.ShapeCasts S16x64x128
  shapeCasts_S16x64x128_S16x64x1x128 : S16x64x128.ShapeCasts S16x64x1x128
  concatenates_S16x64x1x128_S16x64x1x128_S16x64x2x128_d2 : Shape.Concatenates [S16x64x1x128, S16x64x1x128] S16x64x2x128 2
  shapeCasts_S16x64x2x128_S16x128x128 : S16x64x2x128.ShapeCasts S16x128x128
  shapeCasts_S16x128x128_S16x1x128x128 : S16x128x128.ShapeCasts S16x1x128x128
  concatenates_S16x1x128x128_S16x1x128x128_S16x2x128x128_d1 : Shape.Concatenates [S16x1x128x128, S16x1x128x128] S16x2x128x128 1
  shapeCasts_S16x2x128x128_S32x128x128 : S16x2x128x128.ShapeCasts S32x128x128
  reduces_S32x128x128_S32x128 : S32x128x128.Reduces [2] S32x128
  shapeCasts_S32x128_S32x128x1 : S32x128.ShapeCasts S32x128x1
  broadcasts_S32x128x1_S32x128x128 : S32x128x1.Broadcasts S32x128x128
  inb_S128_S128_0 : ∀ a, (![0] : Fin 1 → Nat) a + S128.size a ≤ S128.size a
  h_S128 : 0 < S128.numel
  shapeCasts_S128_S1x1x128 : S128.ShapeCasts S1x1x128
  broadcasts_S1x1x128_S32x128x128 : S1x1x128.Broadcasts S32x128x128
  inb_S1x32x128x128_S1x32x128x128_0_0_0_0 : ∀ a, (![0, 0, 0, 0] : Fin 4 → Nat) a + S1x32x128x128.size a ≤ S1x32x128x128.size a
  h_S1x32x128x128 : 0 < S1x32x128x128.numel
  shapeCasts_S1x32x128x128_S32x128x128 : S1x32x128x128.ShapeCasts S32x128x128
  shapeCasts_S32x128x128_S1x32x128x128 : S32x128x128.ShapeCasts S1x32x128x128
  shapeCasts_S16x128x128x128_S16x16384x128 : S16x128x128x128.ShapeCasts S16x16384x128
  dot_S1024x256_S512x256_S1024x512_1_1_0_0_n_n_wf : DotDims.WF S1024x256 S512x256 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x256.size a ≤ S16x4096x256.size a
  hwx0_0 : ∀ i : grid0.Coords, EltTy.bits .f32 = 32 ∨ (Rect.block (s := S16x4096x256) S1x1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x32x128x128.size a ≤ S16x128x128x128.size a
  hwx0_4 : ∀ i : grid0.Coords, EltTy.bits .f32 = 32 ∨ (Rect.block (s := S16x128x128x128) S1x32x128x128.size (cc0_transform_4 i) (hinb0_4 i)).WholeWords (EltTy.packing .f32)

variable [Facts₀]

def dot_S1024x256_S512x256_S1024x512_1_1_0_0_n_n : DotDims S1024x256 S512x256 S1024x512 where
  lhsContracting := [1]
  rhsContracting := [1]
  lhsNonContracting := [0]
  rhsNonContracting := [0]
  lhsBatch := []
  rhsBatch := []
  wf := dot_S1024x256_S512x256_S1024x512_1_1_0_0_n_n_wf

abbrev win0_0 : Pipeline.Window sig grid0 :=
  Pipeline.Window.ofSpec (Memref.whole main_arg0) S1x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x32x128x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x4096x256 : Shape := ⟨3, ![16, 4096, 256]⟩
abbrev S512x256 : Shape := ⟨2, ![512, 256]⟩
abbrev S128 : Shape := ⟨1, ![128]⟩
abbrev S16x4096x512 : Shape := ⟨3, ![16, 4096, 512]⟩
abbrev S16x64x64x2x2x128 : Shape := ⟨6, ![16, 64, 64, 2, 2, 128]⟩
abbrev S16x64x2x64x2x128 : Shape := ⟨6, ![16, 64, 2, 64, 2, 128]⟩
abbrev S16x16384x128 : Shape := ⟨3, ![16, 16384, 128]⟩
abbrev S_ : Shape := ⟨0, ![]⟩
abbrev S16x16384 : Shape := ⟨2, ![16, 16384]⟩
abbrev S16x16384x1 : Shape := ⟨3, ![16, 16384, 1]⟩
abbrev S1x1x128 : Shape := ⟨3, ![1, 1, 128]⟩

abbrev nBuf : Space → Nat
  | .hbm => 37
  | .vmem => 0
  | .smem => 0
  | _ => 0

abbrev bufTy : (tb : Table) → Fin (tcTables nBuf tb) → BufTy
  | .hbm, ⟨0, _⟩ => ⟨S16x4096x256, .f32⟩
  | .hbm, ⟨1, _⟩ => ⟨S512x256, .f32⟩
  | .hbm, ⟨2, _⟩ => ⟨S128, .f32⟩
  | .hbm, ⟨3, _⟩ => ⟨S128, .f32⟩
  | .hbm, ⟨4, _⟩ => ⟨S16x4096x512, .f32⟩
  | .hbm, ⟨5, _⟩ => ⟨S16x64x64x2x2x128, .f32⟩
  | .hbm, ⟨6, _⟩ => ⟨S16x64x2x64x2x128, .f32⟩
  | .hbm, ⟨7, _⟩ => ⟨S16x16384x128, .f32⟩
  | .hbm, ⟨8, _⟩ => ⟨S_, .f32⟩
  | .hbm, ⟨9, _⟩ => ⟨S16x16384, .f32⟩
  | .hbm, ⟨10, _⟩ => ⟨S16x16384x1, .f32⟩
  | .hbm, ⟨11, _⟩ => ⟨S_, .f32⟩
  | .hbm, ⟨12, _⟩ => ⟨S16x16384x1, .f32⟩
  | .hbm, ⟨13, _⟩ => ⟨S16x16384x1, .f32⟩
  | .hbm, ⟨14, _⟩ => ⟨S16x16384x128, .f32⟩
  | .hbm, ⟨15, _⟩ => ⟨S16x16384x128, .f32⟩
  | .hbm, ⟨16, _⟩ => ⟨S16x16384x128, .f32⟩
  | .hbm, ⟨17, _⟩ => ⟨S_, .f32⟩
  | .hbm, ⟨18, _⟩ => ⟨S16x16384, .f32⟩
  | .hbm, ⟨19, _⟩ => ⟨S16x16384x1, .f32⟩
  | .hbm, ⟨20, _⟩ => ⟨S_, .f32⟩
  | .hbm, ⟨21, _⟩ => ⟨S16x16384x1, .f32⟩
  | .hbm, ⟨22, _⟩ => ⟨S16x16384x1, .f32⟩
  | .hbm, ⟨23, _⟩ => ⟨S16x16384x128, .f32⟩
  | .hbm, ⟨24, _⟩ => ⟨S16x16384x128, .f32⟩
  | .hbm, ⟨25, _⟩ => ⟨S_, .f32⟩
  | .hbm, ⟨26, _⟩ => ⟨S16x16384x1, .f32⟩
  | .hbm, ⟨27, _⟩ => ⟨S16x16384x1, .f32⟩
  | .hbm, ⟨28, _⟩ => ⟨S16x16384x1, .f32⟩
  | .hbm, ⟨29, _⟩ => ⟨S16x16384x128, .f32⟩
  | .hbm, ⟨30, _⟩ => ⟨S16x16384x128, .f32⟩
  | .hbm, ⟨31, _⟩ => ⟨S1x1x128, .f32⟩
  | .hbm, ⟨32, _⟩ => ⟨S16x16384x128, .f32⟩
  | .hbm, ⟨33, _⟩ => ⟨S16x16384x128, .f32⟩
  | .hbm, ⟨34, _⟩ => ⟨S1x1x128, .f32⟩
  | .hbm, ⟨35, _⟩ => ⟨S16x16384x128, .f32⟩
  | .hbm, ⟨36, _⟩ => ⟨S16x16384x128, .f32⟩
  | _, _ => ⟨S16x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]

class Facts₀ : Prop where
  shapeCasts_S16x4096x512_S16x64x64x2x2x128 : S16x4096x512.ShapeCasts S16x64x64x2x2x128
  transposes_S16x64x64x2x2x128_S16x64x2x64x2x128_0_1_3_2_4_5 : S16x64x64x2x2x128.Transposes [0, 1, 3, 2, 4, 5] S16x64x2x64x2x128
  shapeCasts_S16x64x2x64x2x128_S16x16384x128 : S16x64x2x64x2x128.ShapeCasts S16x16384x128
  reducesTo_S16x16384x128_S16x16384_d2 : S16x16384x128.ReducesTo [2] S16x16384
  h_S_ : 0 < S_.numel
  bcast_S16x16384_S16x16384x1_0_1 : S16x16384.BroadcastsInDim S16x16384x1 (![0, 1] : Fin 2 → Fin S16x16384x1.rank)
  bcast_S_S16x16384x1 : S_.BroadcastsInDim S16x16384x1 (![] : Fin 0 → Fin S16x16384x1.rank)
  bcast_S16x16384x1_S16x16384x128_0_1_2 : S16x16384x1.BroadcastsInDim S16x16384x128 (![0, 1, 2] : Fin 3 → Fin S16x16384x128.rank)
  bcast_S128_S1x1x128_2 : S128.BroadcastsInDim S1x1x128 (![2] : Fin 1 → Fin S1x1x128.rank)
  bcast_S1x1x128_S16x16384x128_0_1_2 : S1x1x128.BroadcastsInDim S16x16384x128 (![0, 1, 2] : Fin 3 → Fin S16x16384x128.rank)
  dot_S16x4096x256_S512x256_S16x4096x512_2_1_01_0_n_n_wf : DotDims.WF S16x4096x256 S512x256 S16x4096x512 [2] [1] [0, 1] [0] [] []

variable [Facts₀]

def dot_S16x4096x256_S512x256_S16x4096x512_2_1_01_0_n_n : DotDims S16x4096x256 S512x256 S16x4096x512 where
  lhsContracting := [2]
  rhsContracting := [1]
  lhsNonContracting := [0, 1]
  rhsNonContracting := [0]
  lhsBatch := []
  rhsBatch := []
  wf := dot_S16x4096x256_S512x256_S16x4096x512_2_1_01_0_n_n_wf

class Facts : Prop extends Facts₀ where

variable [Facts]
-- ==== Proof.BlockShuffle.lean ====
/-
  The depth-to-space rearrangement inside one block, read at an index.

  A block's product `y` has 1024 rows (16 x 64 source pixels, row-major) and 512 columns (four groups of
  128 channels). The body cuts the four groups out, lays each as a 16 x 64 grid of pixels, interleaves
  groups 0 and 1 (and groups 2 and 3) along the pixel columns, and interleaves the two results along the
  pixel rows. Entry (r, col, c) of the 32 x 128 x 128 result is therefore entry
  ((r / 2) * 64 + col / 2, (r % 2) * 256 + (col % 2) * 128 + c) of `y`. Every reshape keeps the row-major
  position, a concatenation of two unit-extent pieces picks the piece by the coordinate on that axis.
-/
import proofs.«156656_j1425929142550_1_alg».proof.Proof.Gen.KernelIdeal
import Idealize.ShloMosaic.Lib.Pipeline.Value
import Idealize.ShloMosaic.Lib.ValueIdx

noncomputable section

namespace Cert.KernelIdeal.BlockShuffle

open Cert.KernelIdeal Cert.KernelIdeal.Gen Idealize.ShloMosaic Idealize.ShloMosaic.ValueIdx

variable {α : Type}

/-- One group of 128 channels, starting at column `off`, laid out as a 16 x 64 grid of pixels with a unit axis:
    pixel (hh, ww), channel c is row `hh * 64 + ww`, column `off + c` of the product. -/
theorem group_apply (y : S1024x512.Idx → α) (off : Nat) (hs : S1024x512.Slices ![0, off] S1024x128)
    (hh : Fin 16) (ww : Fin 64) (c : Fin 128) (row : Fin 1024) (e : Fin 512)
    (hrow : row.val = hh.val * 64 + ww.val) (he : e.val = off + c.val) :
    shapeCast S16x64x1x128 (shapeCast S16x64x128 (extractStridedSlice S1024x128 ![0, off] y hs)
      shapeCasts_S1024x128_S16x64x128) shapeCasts_S16x64x128_S16x64x1x128 (ix4 hh ww (0 : Fin 1) c)
      = y (ix2 row e) := by
  refine (shapeCast_apply _ _ (ix4 hh ww (0 : Fin 1) c) (ix3 hh ww c) ?_).trans ?_
  · rw [Shape.rowMajor_val_three, Shape.rowMajor_val_four]
    show (hh.val * 64 + ww.val) * 128 + c.val = ((hh.val * 64 + ww.val) * 1 + 0) * 128 + c.val
    omega
  refine (shapeCast_apply _ _ (ix3 hh ww c) (ix2 row c) ?_).trans ?_
  · rw [Shape.rowMajor_val_two, Shape.rowMajor_val_three]
    show row.val * 128 + c.val = (hh.val * 64 + ww.val) * 128 + c.val
    rw [hrow]
  exact extractStridedSlice_apply _ _ _ (ix2 row c) (ix2 row e) (fun a => match a with
    | ⟨0, _⟩ => by show row.val = 0 + row.val; omega
    | ⟨1, _⟩ => by show e.val = off + c.val; exact he)

/-- Two pixel grids interleaved along the columns, at an even column: the first grid at column `col / 2`. -/
theorem columns_even (u0 u1 : S16x64x1x128.Idx → α) (hh : Fin 16) (col : Fin 128) (c : Fin 128) (ww : Fin 64)
    (hcol : col.val = 2 * ww.val) :
    shapeCast S16x1x128x128 (shapeCast S16x128x128 (concatenate S16x64x2x128 2 [⟨S16x64x1x128, u0⟩, ⟨S16x64x1x128, u1⟩]
      concatenates_S16x64x1x128_S16x64x1x128_S16x64x2x128_d2) shapeCasts_S16x64x2x128_S16x128x128)
      shapeCasts_S16x128x128_S16x1x128x128 (ix4 hh (0 : Fin 1) col c) = u0 (ix4 hh ww (0 : Fin 1) c) := by
  refine (shapeCast_apply _ _ (ix4 hh (0 : Fin 1) col c) (ix3 hh col c) ?_).trans ?_
  · rw [Shape.rowMajor_val_three, Shape.rowMajor_val_four]
    show (hh.val * 128 + col.val) * 128 + c.val = ((hh.val * 1 + 0) * 128 + col.val) * 128 + c.val
    omega
  refine (shapeCast_apply _ _ (ix3 hh col c) (ix4 hh ww (0 : Fin 2) c) ?_).trans ?_
  · rw [Shape.rowMajor_val_four, Shape.rowMajor_val_three]
    show ((hh.val * 64 + ww.val) * 2 + 0) * 128 + c.val = (hh.val * 128 + col.val) * 128 + c.val
    omega
  exact concatenate_pair_apply_left (2 : Fin 4) u0 u1 _ (ix4 hh ww (0 : Fin 2) c) rfl (ix4 hh ww (0 : Fin 1) c)
    (fun b => match b with | ⟨0, _⟩ => rfl | ⟨1, _⟩ => rfl | ⟨2, _⟩ => rfl | ⟨3, _⟩ => rfl)

/-- At an odd column: the second grid at column `col / 2`. -/
theorem columns_odd (u0 u1 : S16x64x1x128.Idx → α) (hh : Fin 16) (col : Fin 128) (c : Fin 128) (ww : Fin 64)
    (hcol : col.val = 2 * ww.val + 1) :
    shapeCast S16x1x128x128 (shapeCast S16x128x128 (concatenate S16x64x2x128 2 [⟨S16x64x1x128, u0⟩, ⟨S16x64x1x128, u1⟩]
      concatenates_S16x64x1x128_S16x64x1x128_S16x64x2x128_d2) shapeCasts_S16x64x2x128_S16x128x128)
      shapeCasts_S16x128x128_S16x1x128x128 (ix4 hh (0 : Fin 1) col c) = u1 (ix4 hh ww (0 : Fin 1) c) := by
  refine (shapeCast_apply _ _ (ix4 hh (0 : Fin 1) col c) (ix3 hh col c) ?_).trans ?_
  · rw [Shape.rowMajor_val_three, Shape.rowMajor_val_four]
    show (hh.val * 128 + col.val) * 128 + c.val = ((hh.val * 1 + 0) * 128 + col.val) * 128 + c.val
    omega
  refine (shapeCast_apply _ _ (ix3 hh col c) (ix4 hh ww (1 : Fin 2) c) ?_).trans ?_
  · rw [Shape.rowMajor_val_four, Shape.rowMajor_val_three]
    show ((hh.val * 64 + ww.val) * 2 + 1) * 128 + c.val = (hh.val * 128 + col.val) * 128 + c.val
    omega
  exact concatenate_pair_apply_right (2 : Fin 4) u0 u1 _ (ix4 hh ww (1 : Fin 2) c) rfl rfl (ix4 hh ww (0 : Fin 1) c)
    (fun b => match b with
      | ⟨0, _⟩ => fun _ => rfl | ⟨1, _⟩ => fun _ => rfl | ⟨2, _⟩ => fun h => absurd rfl h | ⟨3, _⟩ => fun _ => rfl)
    rfl

/-- Two grids interleaved along the pixel rows, at an even row: the first grid at row `r / 2`. -/
theorem rows_even (t0 t1 : S16x1x128x128.Idx → α) (r : Fin 32) (col : Fin 128) (c : Fin 128) (hh : Fin 16)
    (hr : r.val = 2 * hh.val) :
    shapeCast S32x128x128 (concatenate S16x2x128x128 1 [⟨S16x1x128x128, t0⟩, ⟨S16x1x128x128, t1⟩]
      concatenates_S16x1x128x128_S16x1x128x128_S16x2x128x128_d1) shapeCasts_S16x2x128x128_S32x128x128 (ix3 r col c)
      = t0 (ix4 hh (0 : Fin 1) col c) := by
  refine (shapeCast_apply _ _ (ix3 r col c) (ix4 hh (0 : Fin 2) col c) ?_).trans ?_
  · rw [Shape.rowMajor_val_four, Shape.rowMajor_val_three]
    show ((hh.val * 2 + 0) * 128 + col.val) * 128 + c.val = (r.val * 128 + col.val) * 128 + c.val
    omega
  exact concatenate_pair_apply_left (1 : Fin 4) t0 t1 _ (ix4 hh (0 : Fin 2) col c) rfl (ix4 hh (0 : Fin 1) col c)
    (fun b => match b with | ⟨0, _⟩ => rfl | ⟨1, _⟩ => rfl | ⟨2, _⟩ => rfl | ⟨3, _⟩ => rfl)

/-- At an odd row: the second grid at row `r / 2`. -/
theorem rows_odd (t0 t1 : S16x1x128x128.Idx → α) (r : Fin 32) (col : Fin 128) (c : Fin 128) (hh : Fin 16)
    (hr : r.val = 2 * hh.val + 1) :
    shapeCast S32x128x128 (concatenate S16x2x128x128 1 [⟨S16x1x128x128, t0⟩, ⟨S16x1x128x128, t1⟩]
      concatenates_S16x1x128x128_S16x1x128x128_S16x2x128x128_d1) shapeCasts_S16x2x128x128_S32x128x128 (ix3 r col c)
      = t1 (ix4 hh (0 : Fin 1) col c) := by
  refine (shapeCast_apply _ _ (ix3 r col c) (ix4 hh (1 : Fin 2) col c) ?_).trans ?_
  · rw [Shape.rowMajor_val_four, Shape.rowMajor_val_three]
    show ((hh.val * 2 + 1) * 128 + col.val) * 128 + c.val = (r.val * 128 + col.val) * 128 + c.val
    omega
  exact concatenate_pair_apply_right (1 : Fin 4) t0 t1 _ (ix4 hh (1 : Fin 2) col c) rfl rfl (ix4 hh (0 : Fin 1) col c)
    (fun b => match b with
      | ⟨0, _⟩ => fun _ => rfl | ⟨1, _⟩ => fun h => absurd rfl h | ⟨2, _⟩ => fun _ => rfl | ⟨3, _⟩ => fun _ => rfl)
    rfl

/-- Group `off` of the product as a pixel grid. -/
abbrev group (y : S1024x512.Idx → α) (off : Nat) (hs : S1024x512.Slices ![0, off] S1024x128) : S16x64x1x128.Idx → α :=
  shapeCast S16x64x1x128 (shapeCast S16x64x128 (extractStridedSlice S1024x128 ![0, off] y hs)
    shapeCasts_S1024x128_S16x64x128) shapeCasts_S16x64x128_S16x64x1x128

/-- Two pixel grids interleaved along the columns. -/
abbrev columns (u0 u1 : S16x64x1x128.Idx → α) : S16x1x128x128.Idx → α :=
  shapeCast S16x1x128x128 (shapeCast S16x128x128 (concatenate S16x64x2x128 2 [⟨S16x64x1x128, u0⟩, ⟨S16x64x1x128, u1⟩]
    concatenates_S16x64x1x128_S16x64x1x128_S16x64x2x128_d2) shapeCasts_S16x64x2x128_S16x128x128)
    shapeCasts_S16x128x128_S16x1x128x128

/-- Two such grids interleaved along the rows. -/
abbrev rows (t0 t1 : S16x1x128x128.Idx → α) : S32x128x128.Idx → α :=
  shapeCast S32x128x128 (concatenate S16x2x128x128 1 [⟨S16x1x128x128, t0⟩, ⟨S16x1x128x128, t1⟩]
    concatenates_S16x1x128x128_S16x1x128x128_S16x2x128x128_d1) shapeCasts_S16x2x128x128_S32x128x128

/-- The whole rearrangement of a block's product. -/
abbrev shuffle (y : S1024x512.Idx → α) : S32x128x128.Idx → α :=
  rows (columns (group y 0 slices_S1024x512_o0_0_S1024x128) (group y 128 slices_S1024x512_o0_128_S1024x128))
    (columns (group y 256 slices_S1024x512_o0_256_S1024x128) (group y 384 slices_S1024x512_o0_384_S1024x128))

/-- Entry (r, col, c) of the rearranged block is entry ((r / 2) * 64 + col / 2, (r % 2) * 256 + (col % 2) * 128 + c)
    of the product: the row's parity picks the pair of groups, the column's parity the group in the pair. -/
theorem shuffle_apply (y : S1024x512.Idx → α) (r : Fin 32) (col : Fin 128) (c : Fin 128) (row : Fin 1024) (e : Fin 512)
    (hrow : row.val = (r.val / 2) * 64 + col.val / 2)
    (he : e.val = (r.val % 2) * 256 + (col.val % 2) * 128 + c.val) :
    shuffle y (ix3 r col c) = y (ix2 row e) := by
  have hr := r.isLt
  have hc := col.isLt
  rcases Nat.mod_two_eq_zero_or_one r.val with h1 | h1 <;> rcases Nat.mod_two_eq_zero_or_one col.val with h2 | h2
  · exact (rows_even _ _ r col c ⟨r.val / 2, by omega⟩ (by show r.val = 2 * (r.val / 2); omega)).trans
      ((columns_even _ _ ⟨r.val / 2, by omega⟩ col c ⟨col.val / 2, by omega⟩ (by show col.val = 2 * (col.val / 2); omega)).trans
        (group_apply y 0 _ ⟨r.val / 2, by omega⟩ ⟨col.val / 2, by omega⟩ c row e hrow (by omega)))
  · exact (rows_even _ _ r col c ⟨r.val / 2, by omega⟩ (by show r.val = 2 * (r.val / 2); omega)).trans
      ((columns_odd _ _ ⟨r.val / 2, by omega⟩ col c ⟨col.val / 2, by omega⟩ (by show col.val = 2 * (col.val / 2) + 1; omega)).trans
        (group_apply y 128 _ ⟨r.val / 2, by omega⟩ ⟨col.val / 2, by omega⟩ c row e hrow (by omega)))
  · exact (rows_odd _ _ r col c ⟨r.val / 2, by omega⟩ (by show r.val = 2 * (r.val / 2) + 1; omega)).trans
      ((columns_even _ _ ⟨r.val / 2, by omega⟩ col c ⟨col.val / 2, by omega⟩ (by show col.val = 2 * (col.val / 2); omega)).trans
        (group_apply y 256 _ ⟨r.val / 2, by omega⟩ ⟨col.val / 2, by omega⟩ c row e hrow (by omega)))
  · exact (rows_odd _ _ r col c ⟨r.val / 2, by omega⟩ (by show r.val = 2 * (r.val / 2) + 1; omega)).trans
      ((columns_odd _ _ ⟨r.val / 2, by omega⟩ col c ⟨col.val / 2, by omega⟩ (by show col.val = 2 * (col.val / 2) + 1; omega)).trans
        (group_apply y 384 _ ⟨r.val / 2, by omega⟩ ⟨col.val / 2, by omega⟩ c row e hrow (by omega)))

end Cert.KernelIdeal.BlockShuffle

end
-- ==== Proof.ExpandNorm.lean ====
/-
  The function both programs compute, index by index, on the extended reals.

  An image `x[b]` of 4096 pixels (a 64 x 64 grid, row-major) with 256 channels is multiplied by the
  transposed 512 x 256 weight: pixel `l` gets 512 expanded channels, entry `e` being the sum over `k` of
  `x[b, l, k] * w[e, k]`. The 512 channels of pixel (h, w) are four groups of 128, one for each position
  (p1, p2) of a 2 x 2 patch, and go to the four pixels (2h + p1, 2w + p2) of a 128 x 128 grid (depth to
  space). Output pixel `L = (2h + p1) * 128 + (2w + p2)` so reads source pixel `h * 64 + w` and channel
  group `p1 * 256 + p2 * 128`, with `h = L / 256`, `p1 = (L / 128) % 2`, `w = (L % 128) / 2`, `p2 = L % 2`.
  Each output pixel's 128 channels are then normalised: mean and variance over the 128 channels, the
  centred value times the reciprocal square root of (variance + eps), times gamma, plus beta.
-/
import Idealize.ShloMosaic.PureOps.Ideal
import Idealize.ShloMosaic.Lib.ValueIdx

noncomputable section

namespace Cert.ExpandNorm

open Idealize.ShloMosaic Idealize.ShloMosaic.ValueIdx

/-- The divisor 128.0 and the epsilon of the normalisation, as the words both programs print. -/
abbrev width : EReal := Ideal.ofBits .f32 0x43000000#32
abbrev eps : EReal := Ideal.ofBits .f32 0x3727C5AC#32

/-- Expanded channel `e` of pixel `l` of image `b`: row `l` of the image against row `e` of the weight. -/
def expand (x : (⟨3, ![16, 4096, 256]⟩ : Shape).Idx → EReal) (w : (⟨2, ![512, 256]⟩ : Shape).Idx → EReal)
    (b : Fin 16) (l : Fin 4096) (e : Fin 512) : EReal :=
  ∑ k : Fin 256, x (ix3 b l k) * w (ix2 e k)

/-- The source pixel of output pixel `L`: `h * 64 + w` for `L = (2h + p1) * 128 + (2w + p2)`. -/
def srcPixel (L : Fin 16384) : Fin 4096 :=
  ⟨(L.val / 256) * 64 + (L.val % 128) / 2, by have := L.isLt; omega⟩

/-- The expanded channel that output pixel `L`'s channel `c` reads: `p1 * 256 + p2 * 128 + c`. -/
def srcChannel (L : Fin 16384) (c : Fin 128) : Fin 512 :=
  ⟨((L.val / 128) % 2) * 256 + (L.val % 2) * 128 + c.val, by have := c.isLt; omega⟩

/-- The mean of a row of 128 values: their sum over 128.0. -/
def mean (r : Fin 128 → EReal) : EReal := Ideal.div (∑ k : Fin 128, r k) width

/-- The normalisation of a row of 128 values, read at channel `c`, with that channel's scale and shift. -/
def normRow (r : Fin 128 → EReal) (g bt : EReal) (c : Fin 128) : EReal :=
  (r c - mean r) * Ideal.rsqrt (Ideal.div (∑ k : Fin 128, (r k - mean r) * (r k - mean r)) width + eps) * g + bt

/-- The result at image `b`, output pixel `L`, channel `c`. -/
def resultAt (x : (⟨3, ![16, 4096, 256]⟩ : Shape).Idx → EReal) (w : (⟨2, ![512, 256]⟩ : Shape).Idx → EReal)
    (g bt : (⟨1, ![128]⟩ : Shape).Idx → EReal) (b : Fin 16) (L : Fin 16384) (c : Fin 128) : EReal :=
  normRow (fun k => expand x w b (srcPixel L) (srcChannel L k)) (g (ix1 c)) (bt (ix1 c)) c

/-- The whole result, 16 images of 16384 pixels of 128 channels. -/
def result (x : (⟨3, ![16, 4096, 256]⟩ : Shape).Idx → EReal) (w : (⟨2, ![512, 256]⟩ : Shape).Idx → EReal)
    (g bt : (⟨1, ![128]⟩ : Shape).Idx → EReal) : (⟨3, ![16, 16384, 128]⟩ : Shape).Idx → EReal :=
  fun i => resultAt x w g bt ⟨(i 0).val, (i 0).isLt⟩ ⟨(i 1).val, (i 1).isLt⟩ ⟨(i 2).val, (i 2).isLt⟩

/-- The same with the pixels kept as a 128 x 128 grid: pixel (R, C) is `L = R * 128 + C`. -/
def resultGrid (x : (⟨3, ![16, 4096, 256]⟩ : Shape).Idx → EReal) (w : (⟨2, ![512, 256]⟩ : Shape).Idx → EReal)
    (g bt : (⟨1, ![128]⟩ : Shape).Idx → EReal) : (⟨4, ![16, 128, 128, 128]⟩ : Shape).Idx → EReal :=
  fun i => resultAt x w g bt ⟨(i 0).val, (i 0).isLt⟩
    ⟨(i 1).val * 128 + (i 2).val, by have := (i 1).isLt; have := (i 2).isLt; simp at *; omega⟩ ⟨(i 3).val, (i 3).isLt⟩

end Cert.ExpandNorm

end
-- ==== Proof.BlockNorm.lean ====
/-
  What one grid point stores, read at an index.

  From the point's image block `x0` (1024 pixels x 256 channels), the weight `x1`, the scale `x2` and the
  shift `x3`, the body forms the block's product, rearranges it (BlockShuffle), and normalises every row of
  128 channels. Entry (r, col, c) of the stored block is `ExpandNorm.normRow` of the row
  `k ↦ ∑ d, x0[0, (r / 2) * 64 + col / 2, d] * x1[(r % 2) * 256 + (col % 2) * 128 + k, d]`
  at channel `c` with scale `x2[c]` and shift `x3[c]`. The matrix product into the zero array is the plain sum over
  the shared axis, the narrowing of its operands is the identity on the extended reals, and a lane reduction
  from the zero word is the plain sum over the 128 lanes.
-/
import proofs.«156656_j1425929142550_1_alg».proof.Proof.Gen.KernelIdeal.Skeleton
import proofs.«156656_j1425929142550_1_alg».proof.Proof.BlockShuffle
import proofs.«156656_j1425929142550_1_alg».proof.Proof.ExpandNorm
import Idealize.ShloMosaic.Lib.Pipeline.Value
import Idealize.ShloMosaic.Lib.ValueIdx
import Idealize.ShloMosaic.PureOps.Ideal.Laws

noncomputable section

namespace Cert.KernelIdeal.BlockNorm

open Cert.KernelIdeal Cert.KernelIdeal.Gen Idealize.ShloMosaic Idealize.ShloMosaic.ValueIdx
open Cert.KernelIdeal.BlockShuffle

/-! ## The block's product -/

theorem lhs_axis0 (i : S1024x512.Idx) (q : dot_S1024x256_S512x256_S1024x512_1_1_0_0_n_n.contr.Idx) :
    (dot_S1024x256_S512x256_S1024x512_1_1_0_0_n_n.lhsIdx i q 0).val = (i 0).val := by
  unfold DotDims.lhsIdx
  rw [dif_neg (show ¬(0 : Fin S1024x256.rank) ∈ dot_S1024x256_S512x256_S1024x512_1_1_0_0_n_n.lhsBatch by decide), dif_pos (show (0 : Fin S1024x256.rank) ∈ dot_S1024x256_S512x256_S1024x512_1_1_0_0_n_n.lhsNonContracting by decide)]
  rfl
theorem lhs_axis1 (i : S1024x512.Idx) (q : dot_S1024x256_S512x256_S1024x512_1_1_0_0_n_n.contr.Idx) :
    (dot_S1024x256_S512x256_S1024x512_1_1_0_0_n_n.lhsIdx i q 1).val = (q ⟨0, by decide⟩).val :=
  dot_S1024x256_S512x256_S1024x512_1_1_0_0_n_n.lhsIdx_val_of_single rfl i q
theorem rhs_axis0 (i : S1024x512.Idx) (q : dot_S1024x256_S512x256_S1024x512_1_1_0_0_n_n.contr.Idx) :
    (dot_S1024x256_S512x256_S1024x512_1_1_0_0_n_n.rhsIdx i q 0).val = (i 1).val := by
  unfold DotDims.rhsIdx
  rw [dif_neg (show ¬(0 : Fin S512x256.rank) ∈ dot_S1024x256_S512x256_S1024x512_1_1_0_0_n_n.rhsBatch by decide), dif_pos (show (0 : Fin S512x256.rank) ∈ dot_S1024x256_S512x256_S1024x512_1_1_0_0_n_n.rhsNonContracting by decide)]
  rfl
theorem rhs_axis1 (i : S1024x512.Idx) (q : dot_S1024x256_S512x256_S1024x512_1_1_0_0_n_n.contr.Idx) :
    (dot_S1024x256_S512x256_S1024x512_1_1_0_0_n_n.rhsIdx i q 1).val = (q ⟨0, by decide⟩).val :=
  dot_S1024x256_S512x256_S1024x512_1_1_0_0_n_n.rhsIdx_val_of_single rfl i q

/-- The block's product as the body forms it. -/
abbrev product (x0 : Vec Ideal S1x1024x256 .f32) (x1 : Vec Ideal S512x256 .f32) : FVec Ideal S1024x512 .f32 :=
  matmul dot_S1024x256_S512x256_S1024x512_1_1_0_0_n_n none
    (truncf .bf16 (shapeCast S1024x256 x0 shapeCasts_S1x1024x256_S1024x256) bitsLt_bf16_f32)
    (truncf .bf16 x1 bitsLt_bf16_f32) (constant S1024x512 .f32 0x00000000#32)

/-- Entry (row, e) of the block's product: pixel `row` of the block against row `e` of the weight. -/
theorem product_apply (x0 : Vec Ideal S1x1024x256 .f32) (x1 : Vec Ideal S512x256 .f32) (row : Fin 1024) (e : Fin 512) :
    product x0 x1 (ix2 row e) = ∑ k : Fin 256, x0 (ix3 (0 : Fin 1) row k) * x1 (ix2 e k) := by
  show FloatOps.matmul dot_S1024x256_S512x256_S1024x512_1_1_0_0_n_n none _ _ (constant S1024x512 .f32 0x00000000#32) (ix2 row e) = _
  rw [Ideal.matmul_constant_zero_apply, ← Equiv.sum_comp (contrEquiv1 dot_S1024x256_S512x256_S1024x512_1_1_0_0_n_n 256 rfl rfl).symm]
  refine Finset.sum_congr rfl fun k _ => ?_
  have hk := contrEquiv1_symm_val dot_S1024x256_S512x256_S1024x512_1_1_0_0_n_n 256 rfl rfl k
  have el : dot_S1024x256_S512x256_S1024x512_1_1_0_0_n_n.lhsIdx (ix2 row e) ((contrEquiv1 dot_S1024x256_S512x256_S1024x512_1_1_0_0_n_n 256 rfl rfl).symm k) = ix2 row k := funext fun a => Fin.ext (by
    match a with
    | ⟨0, _⟩ => exact lhs_axis0 _ _
    | ⟨1, _⟩ => exact (lhs_axis1 _ _).trans hk)
  have er : dot_S1024x256_S512x256_S1024x512_1_1_0_0_n_n.rhsIdx (ix2 row e) ((contrEquiv1 dot_S1024x256_S512x256_S1024x512_1_1_0_0_n_n 256 rfl rfl).symm k) = ix2 e k := funext fun a => Fin.ext (by
    match a with
    | ⟨0, _⟩ => exact rhs_axis0 _ _
    | ⟨1, _⟩ => exact (rhs_axis1 _ _).trans hk)
  rw [el, er]
  show shapeCast S1024x256 x0 shapeCasts_S1x1024x256_S1024x256 (ix2 row k) * x1 (ix2 e k) = _
  refine congrArg (· * x1 (ix2 e k)) ?_
  exact shapeCast_apply x0 _ (ix2 row k) (ix3 (0 : Fin 1) row k) (by
    rw [Shape.rowMajor_val_three, Shape.rowMajor_val_two]
    show (0 * 1024 + row.val) * 256 + k.val = row.val * 256 + k.val
    omega)

/-! ## Lane sums and broadcasts -/

/-- A sum over the 128 lanes from the zero word, with its unit axis: the plain sum of the row. -/
theorem laneSum_apply (src : FVec Ideal S32x128x128 .f32) (hφ : FKind.Formats FTy.f32)
    (hacc : (0x00000000#32 : BitVec FTy.f32.bits) = FKind.add.neutral .f32 hφ) (r : Fin 32) (col : Fin 128) :
    shapeCast S32x128x1 (multiReduction .add [2] S32x128 src 0x00000000#32 reduces_S32x128x128_S32x128 hφ hacc)
      shapeCasts_S32x128_S32x128x1 (ix3 r col (0 : Fin 1)) = ∑ k : Fin 128, src (ix3 r col k) := by
  refine (shapeCast_apply _ _ (ix3 r col (0 : Fin 1)) (ix2 r col) ?_).trans ?_
  · rw [Shape.rowMajor_val_two, Shape.rowMajor_val_three]
    show r.val * 128 + col.val = (r.val * 128 + col.val) * 1 + 0
    omega
  refine (Ideal.multiReduction_add_single src 0x00000000#32 reduces_S32x128x128_S32x128 hφ hacc (ix2 r col)).trans ?_
  exact Finset.sum_congr rfl fun k _ => congrArg src (funext fun a => Fin.ext (by
    match a with | ⟨0, _⟩ => rfl | ⟨1, _⟩ => rfl | ⟨2, _⟩ => rfl))

/-- A per-row value spread over the lanes. -/
theorem lanes_apply (v : FVec Ideal S32x128x1 .f32) (r : Fin 32) (col : Fin 128) (c : Fin 128) :
    broadcastTo S32x128x128 v broadcasts_S32x128x1_S32x128x128 (ix3 r col c) = v (ix3 r col (0 : Fin 1)) :=
  broadcastTo_apply v _ (ix3 r col c) (ix3 r col (0 : Fin 1)) (fun a => match a with
    | ⟨0, _⟩ => rfl | ⟨1, _⟩ => rfl | ⟨2, _⟩ => rfl)

/-- A per-channel vector spread over the rows. -/
theorem channels_apply (g : Vec Ideal S128 .f32) (r : Fin 32) (col : Fin 128) (c : Fin 128) :
    broadcastTo S32x128x128 (shapeCast S1x1x128 g shapeCasts_S128_S1x1x128) broadcasts_S1x1x128_S32x128x128 (ix3 r col c)
      = g (ix1 c) := by
  refine (broadcastTo_apply _ _ (ix3 r col c) (ix3 (0 : Fin 1) (0 : Fin 1) c) (fun a => match a with
    | ⟨0, _⟩ => rfl | ⟨1, _⟩ => rfl | ⟨2, _⟩ => rfl)).trans ?_
  exact shapeCast_apply g _ (ix3 (0 : Fin 1) (0 : Fin 1) c) (ix1 c) (by
    rw [Shape.rowMajor_val_one, Shape.rowMajor_val_three]
    show c.val = (0 * 1 + 0) * 128 + c.val
    omega)

/-! ## The payload -/

/-- The pixel of the block that entry (r, col) of the rearranged block reads, -/
def blockPixel (r : Fin 32) (col : Fin 128) : Fin 1024 :=
  ⟨(r.val / 2) * 64 + col.val / 2, by have := r.isLt; have := col.isLt; omega⟩
/-- and the row of the weight its channel `k` reads. -/
def blockChannel (r : Fin 32) (col : Fin 128) (k : Fin 128) : Fin 512 :=
  ⟨(r.val % 2) * 256 + (col.val % 2) * 128 + k.val, by have := k.isLt; omega⟩

/-- The 128 channels of entry (r, col) of the rearranged block, before normalisation. -/
def blockRow (x0 : Vec Ideal S1x1024x256 .f32) (x1 : Vec Ideal S512x256 .f32) (r : Fin 32) (col : Fin 128) : Fin 128 → EReal :=
  fun k => ∑ d : Fin 256, x0 (ix3 (0 : Fin 1) (blockPixel r col) d) * x1 (ix2 (blockChannel r col k) d)

/-- The rearranged product of the block. -/
theorem pay2_apply (x0 : Vec Ideal S1x1024x256 .f32) (x1 : Vec Ideal S512x256 .f32) (r : Fin 32) (col : Fin 128) (k : Fin 128) :
    k0_pay2 x0 x1 (ix3 r col k) = blockRow x0 x1 r col k :=
  (shuffle_apply (product x0 x1) r col k (blockPixel r col) (blockChannel r col k) rfl rfl).trans
    (product_apply x0 x1 (blockPixel r col) (blockChannel r col k))

/-- The row's mean. -/
theorem pay3_apply (x0 : Vec Ideal S1x1024x256 .f32) (x1 : Vec Ideal S512x256 .f32) (r : Fin 32) (col : Fin 128) :
    k0_pay3 x0 x1 (ix3 r col (0 : Fin 1)) = ExpandNorm.mean (blockRow x0 x1 r col) :=
  congrArg (fun s => Ideal.div s ExpandNorm.width)
    ((laneSum_apply (k0_pay2 x0 x1) (.inl rfl) rfl r col).trans (Finset.sum_congr rfl fun k _ => pay2_apply x0 x1 r col k))

/-- The row centred at its mean. -/
theorem centred_apply (x0 : Vec Ideal S1x1024x256 .f32) (x1 : Vec Ideal S512x256 .f32) (r : Fin 32) (col : Fin 128) (k : Fin 128) :
    subf (k0_pay2 x0 x1) (broadcastTo S32x128x128 (k0_pay3 x0 x1) broadcasts_S32x128x1_S32x128x128) (ix3 r col k)
      = blockRow x0 x1 r col k - ExpandNorm.mean (blockRow x0 x1 r col) := by
  show k0_pay2 x0 x1 (ix3 r col k) - broadcastTo S32x128x128 (k0_pay3 x0 x1) broadcasts_S32x128x1_S32x128x128 (ix3 r col k) = _
  rw [lanes_apply, pay3_apply, pay2_apply]

theorem pay4_apply (x0 : Vec Ideal S1x1024x256 .f32) (x1 : Vec Ideal S512x256 .f32) (r : Fin 32) (col : Fin 128) (c : Fin 128) :
    k0_pay4 x0 x1 (ix3 r col c) = blockRow x0 x1 r col c - ExpandNorm.mean (blockRow x0 x1 r col) :=
  centred_apply x0 x1 r col c

/-- The centred block, as the body spells it. -/
abbrev centredBlock (x0 : Vec Ideal S1x1024x256 .f32) (x1 : Vec Ideal S512x256 .f32) : FVec Ideal S32x128x128 .f32 :=
  subf (k0_pay2 x0 x1) (broadcastTo S32x128x128 (k0_pay3 x0 x1) broadcasts_S32x128x1_S32x128x128)

/-- The reciprocal square root of the row's variance plus epsilon, spread over the lanes. -/
theorem pay5_apply (x0 : Vec Ideal S1x1024x256 .f32) (x1 : Vec Ideal S512x256 .f32) (r : Fin 32) (col : Fin 128) (c : Fin 128) :
    k0_pay5 x0 x1 (ix3 r col c)
      = Ideal.rsqrt (Ideal.div (∑ k : Fin 128, (blockRow x0 x1 r col k - ExpandNorm.mean (blockRow x0 x1 r col))
          * (blockRow x0 x1 r col k - ExpandNorm.mean (blockRow x0 x1 r col))) ExpandNorm.width + ExpandNorm.eps) := by
  have h : k0_pay5 x0 x1 = broadcastTo S32x128x128 (rsqrt (addf (divf (shapeCast S32x128x1
      (multiReduction .add [2] S32x128 (mulf (centredBlock x0 x1) (centredBlock x0 x1)) 0x00000000#32 reduces_S32x128x128_S32x128 (.inl rfl) rfl)
      shapeCasts_S32x128_S32x128x1) (broadcast S32x128x1 (Scalar.ofBits .f32 0x43000000#32)))
      (broadcast S32x128x1 (Scalar.ofBits .f32 0x3727C5AC#32)))) broadcasts_S32x128x1_S32x128x128 := rfl
  rw [h, lanes_apply]
  show Ideal.rsqrt (Ideal.div (shapeCast S32x128x1
      (multiReduction .add [2] S32x128 (mulf (centredBlock x0 x1) (centredBlock x0 x1)) 0x00000000#32 reduces_S32x128x128_S32x128 (.inl rfl) rfl)
      shapeCasts_S32x128_S32x128x1 (ix3 r col (0 : Fin 1))) ExpandNorm.width + ExpandNorm.eps) = _
  refine congrArg Ideal.rsqrt (congrArg (fun s => s + ExpandNorm.eps) (congrArg (fun s => Ideal.div s ExpandNorm.width) ?_))
  refine (laneSum_apply _ (.inl rfl) rfl r col).trans (Finset.sum_congr rfl fun k _ => ?_)
  show centredBlock x0 x1 (ix3 r col k) * centredBlock x0 x1 (ix3 r col k) = _
  rw [show centredBlock x0 x1 (ix3 r col k) = _ from centred_apply x0 x1 r col k]

/-- The stored value from the centred row and the spread factor: their product, scaled and shifted per channel. -/
theorem pay1_apply (x2 x3 : Vec Ideal S128 .f32) (v40 v44 : FVec Ideal S32x128x128 .f32) (u : Fin 1) (r : Fin 32) (col : Fin 128) (c : Fin 128) :
    k0_pay1 x2 x3 v40 v44 (ix4 u r col c) = v40 (ix3 r col c) * v44 (ix3 r col c) * x2 (ix1 c) + x3 (ix1 c) := by
  have hu := u.isLt
  have h : k0_pay1 x2 x3 v40 v44 = shapeCast S1x32x128x128 (addf (mulf (mulf v40 v44)
      (broadcastTo S32x128x128 (shapeCast S1x1x128 x2 shapeCasts_S128_S1x1x128) broadcasts_S1x1x128_S32x128x128))
      (broadcastTo S32x128x128 (shapeCast S1x1x128 x3 shapeCasts_S128_S1x1x128) broadcasts_S1x1x128_S32x128x128))
      shapeCasts_S32x128x128_S1x32x128x128 := rfl
  rw [h]
  refine (shapeCast_apply _ _ (ix4 u r col c) (ix3 r col c) ?_).trans ?_
  · rw [Shape.rowMajor_val_three, Shape.rowMajor_val_four]
    show (r.val * 128 + col.val) * 128 + c.val = ((u.val * 32 + r.val) * 128 + col.val) * 128 + c.val
    omega
  show v40 (ix3 r col c) * v44 (ix3 r col c)
      * broadcastTo S32x128x128 (shapeCast S1x1x128 x2 shapeCasts_S128_S1x1x128) broadcasts_S1x1x128_S32x128x128 (ix3 r col c)
      + broadcastTo S32x128x128 (shapeCast S1x1x128 x3 shapeCasts_S128_S1x1x128) broadcasts_S1x1x128_S32x128x128 (ix3 r col c) = _
  rw [channels_apply, channels_apply]

/-- WHAT A POINT STORES at (u, r, col, c), `u` the block's one leading coordinate: the normalised row of the rearranged product at channel `c`. -/
theorem payload_apply (x0 : Vec Ideal S1x1024x256 .f32) (x1 : Vec Ideal S512x256 .f32) (x2 x3 : Vec Ideal S128 .f32)
    (u : Fin 1) (r : Fin 32) (col : Fin 128) (c : Fin 128) :
    k0_pay1 x2 x3 (k0_pay4 x0 x1) (k0_pay5 x0 x1) (ix4 u r col c)
      = ExpandNorm.normRow (blockRow x0 x1 r col) (x2 (ix1 c)) (x3 (ix1 c)) c := by
  rw [pay1_apply, pay4_apply, pay5_apply]
  rfl

end Cert.KernelIdeal.BlockNorm

end
-- ==== Proof.BlockResult.lean ====
/-
  A stored block entry is the specification's entry.

  Grid point (bi, hb) holds pixels `hb * 1024 ..< (hb + 1) * 1024` of image `bi` and writes rows
  `hb * 32 ..< (hb + 1) * 32` of the 128 x 128 output grid. For output pixel `L = (hb * 32 + r) * 128 + col`
  the specification's source pixel is `hb * 1024 + (r / 2) * 64 + col / 2`, the block's pixel `(r / 2) * 64 + col / 2`
  shifted by the block's offset, and its source channel is `(r % 2) * 256 + (col % 2) * 128 + k`, the block's own
  (`hb * 32` is even). So the two rows of 128 values agree entry by entry, and so do their normalisations.
-/
import proofs.«156656_j1425929142550_1_alg».proof.Proof.BlockNorm

noncomputable section

namespace Cert.KernelIdeal.BlockResult

open Cert.KernelIdeal Cert.KernelIdeal.Gen Idealize.ShloMosaic Idealize.ShloMosaic.ValueIdx
open Cert.KernelIdeal.BlockNorm Cert.ExpandNorm

theorem block_eq_resultAt (X : S16x4096x256.Idx → EReal) (W : S512x256.Idx → EReal) (G B : S128.Idx → EReal)
    (x0 : Vec Ideal S1x1024x256 .f32) (x1 : Vec Ideal S512x256 .f32) (x2 x3 : Vec Ideal S128 .f32)
    (bi : Fin 16) (hb : Nat) (hhb : hb < 4)
    (h0 : ∀ (p : Fin 1024) (d : Fin 256) (q : Fin 4096), q.val = hb * 1024 + p.val → x0 (ix3 (0 : Fin 1) p d) = X (ix3 bi q d))
    (h1 : ∀ (e : Fin 512) (d : Fin 256), x1 (ix2 e d) = W (ix2 e d))
    (h2 : ∀ c : Fin 128, x2 (ix1 c) = G (ix1 c)) (h3 : ∀ c : Fin 128, x3 (ix1 c) = B (ix1 c))
    (r : Fin 32) (col c : Fin 128) (L : Fin 16384) (c' : Fin 128)
    (hL : L.val = (hb * 32 + r.val) * 128 + col.val) (hc : c'.val = c.val) :
    normRow (blockRow x0 x1 r col) (x2 (ix1 c)) (x3 (ix1 c)) c = resultAt X W G B bi L c' := by
  obtain rfl : c' = c := Fin.ext hc
  have hr := r.isLt
  have hcol := col.isLt
  have hp : (srcPixel L).val = hb * 1024 + (blockPixel r col).val := by
    show (L.val / 256) * 64 + (L.val % 128) / 2 = hb * 1024 + ((r.val / 2) * 64 + col.val / 2)
    omega
  have hch : ∀ k : Fin 128, blockChannel r col k = srcChannel L k := fun k => Fin.ext (by
    show (r.val % 2) * 256 + (col.val % 2) * 128 + k.val = ((L.val / 128) % 2) * 256 + (L.val % 2) * 128 + k.val
    omega)
  have hrow : blockRow x0 x1 r col = fun k => expand X W bi (srcPixel L) (srcChannel L k) := by
    funext k
    unfold blockRow expand
    refine Finset.sum_congr rfl fun d _ => ?_
    rw [h0 (blockPixel r col) d (srcPixel L) hp, h1, hch k]
  unfold resultAt
  rw [hrow, h2, h3]

end Cert.KernelIdeal.BlockResult

end
-- ==== Proof.ArrayValue.lean ====
/-
  The output array after the kernel region is the specification on the 128 x 128 pixel grid.

  Grid point `t = (bi, hb)` reads block (bi, hb, 0) of the image array (one image, 1024 pixels, all channels), the
  whole weight, scale and shift, and writes block (bi, hb, 0, 0) of the output array (one image, 32 rows of the pixel
  grid, all columns and channels). What it writes is the specification restricted to that block (BlockResult); the
  64 blocks tile the array: entry (b, R, C, c) lies in the block of point (b, R / 32).
-/
import proofs.«156656_j1425929142550_1_alg».proof.Proof.Gen.KernelIdeal.Frame
import proofs.«156656_j1425929142550_1_alg».proof.Proof.BlockResult
import Idealize.ShloMosaic.Lib.Pipeline.Value

set_option maxRecDepth 16384

noncomputable section

namespace Cert.KernelIdeal.ArrayValue

open Cert.KernelIdeal Cert.KernelIdeal.Gen Idealize.ShloMosaic Idealize.ShloMosaic.TcCoe Idealize.SL.Sem
open Idealize.ShloMosaic.Pipeline (Dat)
open Idealize.ShloMosaic.ValueIdx
open Cert.KernelIdeal.BlockNorm Cert.KernelIdeal.BlockResult Cert.ExpandNorm

variable (m : (ℓ : Loc nD τ sig) → Buf (Elt Ideal) ℓ) (ρ : Dev nD → PrngReg)

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The specification on the pixel grid, of the argument arrays as the region finds them. -/
abbrev gridResult (c : Dev nD) : S16x128x128x128.Idx → EReal :=
  resultGrid (V m c main_arg0 : S16x4096x256.Idx → EReal) (V m c main_arg1 : S512x256.Idx → EReal)
    (V m c main_arg2 : S128.Idx → EReal) (V m c main_arg3 : S128.Idx → EReal)

/-- The printed index maps over the grid: the image window moves with the output window on the image and row-block
    axes; the weight, scale and shift stay at block zero; the output's image index is below 16, its row block below 4. -/
theorem idx_facts : ∀ t : Fin cfg0.N,
    win0_0.index t (0 : Fin 3) = win0_4.index t (0 : Fin 4) ∧ win0_0.index t (1 : Fin 3) = win0_4.index t (1 : Fin 4)
    ∧ win0_0.index t (2 : Fin 3) = 0 ∧ win0_1.index t (0 : Fin 2) = 0 ∧ win0_1.index t (1 : Fin 2) = 0
    ∧ win0_2.index t (0 : Fin 1) = 0 ∧ win0_3.index t (0 : Fin 1) = 0
    ∧ win0_4.index t (0 : Fin 4) ≤ 15 ∧ win0_4.index t (1 : Fin 4) ≤ 3
    ∧ win0_4.index t (2 : Fin 4) = 0 ∧ win0_4.index t (3 : Fin 4) = 0 :=
  (by decide +kernel : ∀ t : Fin grid0.N, _)

/-- Every (image, row block) is some point's. -/
theorem idx_onto : ∀ (q0 : Fin 16) (q1 : Fin 4), ∃ t : Fin cfg0.N, win0_4.index t = ![q0.val, q1.val, 0, 0] :=
  (by decide +kernel : ∀ (q0 : Fin 16) (q1 : Fin 4), ∃ t : Fin grid0.N, win0_4.index t = ![q0.val, q1.val, 0, 0])

/-! ## The input windows' blocks read at an index -/

theorem image_block_apply (c : Dev nD) (t : Fin cfg0.N) (x : S1x1024x256.Idx) (k : S16x4096x256.Idx)
    (h0 : (k 0).val = win0_0.index t (0 : Fin 3) * 1 + (x 0).val) (h1 : (k 1).val = win0_0.index t (1 : Fin 3) * 1024 + (x 1).val)
    (h2 : (k 2).val = win0_0.index t (2 : Fin 3) * 256 + (x 2).val) :
    (iblk m c 0 t : Vec Ideal S1x1024x256 .f32) x = (V m c main_arg0 : S16x4096x256.Idx → EReal) k := by
  unfold iblk
  rw [View.read_apply]
  show V m c main_arg0 _ = V m c main_arg0 _
  congr 1
  funext a
  apply Fin.ext
  match a with
  | ⟨0, _⟩ => show win0_0.index t (0 : Fin 3) * 1 + 1 * (x 0).val = (k 0).val; omega
  | ⟨1, _⟩ => show win0_0.index t (1 : Fin 3) * 1024 + 1 * (x 1).val = (k 1).val; omega
  | ⟨2, _⟩ => show win0_0.index t (2 : Fin 3) * 256 + 1 * (x 2).val = (k 2).val; omega

theorem weight_block_apply (c : Dev nD) (t : Fin cfg0.N) (x : S512x256.Idx) :
    (iblk m c 1 t : Vec Ideal S512x256 .f32) x = (V m c main_arg1 : S512x256.Idx → EReal) x := by
  obtain ⟨-, -, -, e3, e4, -⟩ := idx_facts t
  unfold iblk
  rw [View.read_apply]
  show V m c main_arg1 _ = V m c main_arg1 _
  congr 1
  funext a
  apply Fin.ext
  match a with
  | ⟨0, _⟩ => show win0_1.index t (0 : Fin 2) * 512 + 1 * (x 0).val = (x 0).val; omega
  | ⟨1, _⟩ => show win0_1.index t (1 : Fin 2) * 256 + 1 * (x 1).val = (x 1).val; omega

theorem scale_block_apply (c : Dev nD) (t : Fin cfg0.N) (x : S128.Idx) :
    (iblk m c 2 t : Vec Ideal S128 .f32) x = (V m c main_arg2 : S128.Idx → EReal) x := by
  obtain ⟨-, -, -, -, -, e5, -⟩ := idx_facts t
  unfold iblk
  rw [View.read_apply]
  show V m c main_arg2 _ = V m c main_arg2 _
  congr 1
  funext a
  apply Fin.ext
  match a with
  | ⟨0, _⟩ => show win0_2.index t (0 : Fin 1) * 128 + 1 * (x 0).val = (x 0).val; omega

theorem shift_block_apply (c : Dev nD) (t : Fin cfg0.N) (x : S128.Idx) :
    (iblk m c 3 t : Vec Ideal S128 .f32) x = (V m c main_arg3 : S128.Idx → EReal) x := by
  obtain ⟨-, -, -, -, -, -, e6, -⟩ := idx_facts t
  unfold iblk
  rw [View.read_apply]
  show V m c main_arg3 _ = V m c main_arg3 _
  congr 1
  funext a
  apply Fin.ext
  match a with
  | ⟨0, _⟩ => show win0_3.index t (0 : Fin 1) * 128 + 1 * (x 0).val = (x 0).val; omega

/-! ## What a point writes back -/

/-- Entry `j` of the block point `t` stores is the specification at the array index `j` sits at. -/
theorem stored_eq (c : Dev nD) (t : Fin cfg0.N) (j : S1x32x128x128.Idx) :
    k0_pay1 (iblk m c 2 t) (iblk m c 3 t) (k0_pay4 (iblk m c 0 t) (iblk m c 1 t)) (k0_pay5 (iblk m c 0 t) (iblk m c 1 t)) j
      = gridResult m c (((cfg0.win 4).blk t).view.emb j) := by
  obtain ⟨e0, e1, e2, e3, e4, e5, e6, e7, e8, e9, e10⟩ := idx_facts t
  have hj0 : (j 0).val < 1 := (j 0).isLt
  have hj1 : (j 1).val < 32 := (j 1).isLt
  have hj2 : (j 2).val < 128 := (j 2).isLt
  have hj3 : (j 3).val < 128 := (j 3).isLt
  refine ((congrArg (k0_pay1 (iblk m c 2 t) (iblk m c 3 t) (k0_pay4 (iblk m c 0 t) (iblk m c 1 t)) (k0_pay5 (iblk m c 0 t) (iblk m c 1 t))) (eq_ix4 j)).trans
    (payload_apply (iblk m c 0 t) (iblk m c 1 t) (iblk m c 2 t) (iblk m c 3 t) (j 0) (j 1) (j 2) (j 3))).trans ?_
  exact block_eq_resultAt (V m c main_arg0) (V m c main_arg1) (V m c main_arg2) (V m c main_arg3)
    (iblk m c 0 t) (iblk m c 1 t) (iblk m c 2 t) (iblk m c 3 t)
    ⟨win0_4.index t (0 : Fin 4) * 1 + 1 * (j 0).val, by omega⟩ (win0_4.index t (1 : Fin 4)) (by omega)
    (fun p d q hq => image_block_apply m c t (ix3 (0 : Fin 1) p d) (ix3 _ q d)
      (by show win0_4.index t (0 : Fin 4) * 1 + 1 * (j 0).val = win0_0.index t (0 : Fin 3) * 1 + 0; omega)
      (by show q.val = win0_0.index t (1 : Fin 3) * 1024 + p.val; omega)
      (by show d.val = win0_0.index t (2 : Fin 3) * 256 + d.val; omega))
    (fun e d => weight_block_apply m c t (ix2 e d)) (fun k => scale_block_apply m c t (ix1 k)) (fun k => shift_block_apply m c t (ix1 k))
    (j 1) (j 2) (j 3)
    ⟨(win0_4.index t (1 : Fin 4) * 32 + 1 * (j 1).val) * 128 + (win0_4.index t (2 : Fin 4) * 128 + 1 * (j 2).val), by omega⟩
    ⟨win0_4.index t (3 : Fin 4) * 128 + 1 * (j 3).val, by omega⟩
    (by show (win0_4.index t (1 : Fin 4) * 32 + 1 * (j 1).val) * 128 + (win0_4.index t (2 : Fin 4) * 128 + 1 * (j 2).val)
          = (win0_4.index t (1 : Fin 4) * 32 + (j 1).val) * 128 + (j 2).val; omega)
    (by show win0_4.index t (3 : Fin 4) * 128 + 1 * (j 3).val = (j 3).val; omega)

/-- WHAT POINT `t` WRITES BACK is block `t` of the specification on the pixel grid. -/
theorem flushed_eq (c : Dev nD) (t : Fin cfg0.N) :
    (dats m 0 c).flushed 4 t = ((cfg0.win 4).blk t).view.read (Elt Ideal) (gridResult m c) := by
  show (cfg0.win 4).cut (grid0.coords t) ((dats m 0 c).after 4 t) = _
  rw [after0_4]
  unfold out0_4
  rw [View.canon_unit_zero hz4]
  simp only [View.ld_unit_zero (S := S1x1024x256) hz3, View.ld_unit_zero (S := S512x256) hz2, View.ld_unit_zero (S := S128) hz1]
  funext j
  exact stored_eq m c t j

/-! ## The blocks tile the array -/

theorem mem_blk (t : Fin cfg0.N) (i : S16x128x128x128.Idx) :
    i ∈ ((cfg0.win 4).blk t).view.set ↔ ∀ a : Fin 4, win0_4.index t a * S1x32x128x128.size a ≤ (i a).val
      ∧ (i a).val < win0_4.index t a * S1x32x128x128.size a + S1x32x128x128.size a := by
  show i ∈ ((View.whole main_v0).slice (win0_4.rect t)).set ↔ _
  rw [View.set_slice_whole, Rect.mem_set_unit]
  exact Iff.rfl

/-- Entry (b, R, C, c) of the array is in the block of the point with image `b` and row block `R / 32`. -/
theorem covered (i : S16x128x128x128.Idx) :
    ∃ t : Fin cfg0.N, (cfg0.win 4).flush t = true ∧ i ∈ ((cfg0.win 4).blk t).view.set := by
  have hi0 : (i 0).val < 16 := (i 0).isLt
  have hi1 : (i 1).val < 128 := (i 1).isLt
  have hi2 : (i 2).val < 128 := (i 2).isLt
  have hi3 : (i 3).val < 128 := (i 3).isLt
  obtain ⟨t, ht⟩ := idx_onto ⟨(i 0).val, hi0⟩ ⟨(i 1).val / 32, by omega⟩
  have q0 : win0_4.index t (0 : Fin 4) = (i 0).val := congrFun ht 0
  have q1 : win0_4.index t (1 : Fin 4) = (i 1).val / 32 := congrFun ht 1
  have q2 : win0_4.index t (2 : Fin 4) = 0 := congrFun ht 2
  have q3 : win0_4.index t (3 : Fin 4) = 0 := congrFun ht 3
  refine ⟨t, flush0_4 t, ?_⟩
  rw [mem_blk]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 32 ≤ (i 1).val ∧ (i 1).val < win0_4.index t (1 : Fin 4) * 32 + 32; omega
  | ⟨2, _⟩ => show win0_4.index t (2 : Fin 4) * 128 ≤ (i 2).val ∧ (i 2).val < win0_4.index t (2 : Fin 4) * 128 + 128; omega
  | ⟨3, _⟩ => show win0_4.index t (3 : Fin 4) * 128 ≤ (i 3).val ∧ (i 3).val < win0_4.index t (3 : Fin 4) * 128 + 128; omega

/-- THE OUTPUT ARRAY after the region. -/
theorem final (c : Dev nD) : (dats m 0 c).arrAt 4 cfg0.N = gridResult m c :=
  (dats m 0 c).arrAt_eq_of_cover 4 (gridResult m c) (fun t _ => flushed_eq m c t) covered

end Cert.KernelIdeal.ArrayValue

end
-- ==== Proof.KernelRun.lean ====
/-
  The kernel program's run, with its result named.

  After the region the output array holds the specification on the 128 x 128 pixel grid (ArrayValue). The one host
  operation after the region reshapes [16, 128, 128, 128] to [16, 16384, 128]: pixel (R, C) becomes pixel
  `R * 128 + C`, which is how the grid form of the specification was defined, so the result buffer ends at
  `ExpandNorm.result` of the argument arrays, which the run leaves unchanged.
-/
import proofs.«156656_j1425929142550_1_alg».proof.Proof.ArrayValue
import Idealize.ShloMosaic.Lib.StableHlo.Run

set_option maxRecDepth 16384

noncomputable section

namespace Cert.KernelIdeal.RunValue

open Cert.KernelIdeal Cert.KernelIdeal.Gen Idealize.ShloMosaic Idealize.ShloMosaic.TcCoe Idealize.SL.Sem
open Idealize.ShloMosaic.Pipeline (Dat)
open Idealize.ShloMosaic.ValueIdx
open Cert.KernelIdeal.ArrayValue Cert.ExpandNorm

/-- The pixel grid flattened row-major is the specification. -/
theorem flatten_grid (x : S16x4096x256.Idx → EReal) (w : S512x256.Idx → EReal) (g bt : S128.Idx → EReal) :
    shapeCast S16x16384x128 (resultGrid x w g bt) shapeCasts_S16x128x128x128_S16x16384x128 = result x w g bt := by
  funext i
  obtain ⟨b, L, cc, rfl⟩ : ∃ (b : Fin 16) (L : Fin 16384) (cc : Fin 128), i = ix3 b L cc := ⟨i 0, i 1, i 2, eq_ix3 i⟩
  have hL := L.isLt
  refine (shapeCast_apply _ _ (ix3 b L cc) (ix4 b (⟨L.val / 128, by omega⟩ : Fin 128) (⟨L.val % 128, by omega⟩ : Fin 128) cc) ?_).trans ?_
  · rw [Shape.rowMajor_val_four, Shape.rowMajor_val_three]
    show ((b.val * 128 + L.val / 128) * 128 + L.val % 128) * 128 + cc.val = (b.val * 16384 + L.val) * 128 + cc.val
    omega
  show resultAt x w g bt b ⟨(L.val / 128) * 128 + L.val % 128, _⟩ cc = resultAt x w g bt b L cc
  congr 1
  exact Fin.ext (by show (L.val / 128) * 128 + L.val % 128 = L.val; omega)

variable (m : (ℓ : Loc nD τ sig) → Buf (Elt Ideal) ℓ) (ρ : Dev nD → PrngReg)

/-- The result buffer is no window's array: the region passes it by and the tail writes it. -/
theorem result_bypasses : main_v1 ∈ Pipeline.restRefs sig spec0 :=
  Pipeline.mem_restRefs_of main_v1 rfl (fun w => by fin_cases w <;> decide)

/-- The result buffer after the tail: the output array, reshaped. -/
theorem tail_eq (c : Dev nD) :
    Pipeline.afterTail₀ cfgs (dats m) 0 (V0 m) [hostOps1] c main_v1
      = shapeCast S16x16384x128 (gridResult m c) shapeCasts_S16x128x128x128_S16x16384x128 := by
  unfold Pipeline.afterTail₀
  show StableHlo.after hostOps1 _ (Proc.devRef .tc main_v1) = _
  after_results
  have e : Pipeline.withArrays (cfgs 0).spec c (V0 m c) (fun w => (dats m 0 c).arrAt w (cfgs 0).N) (Proc.tc.devRef main_v0)
      = gridResult m c :=
    (Pipeline.withArrays_arr spec0 launch0.win.arr_inj c _ _ 4).trans (final m c)
  funext i
  show shapeCast S16x16384x128 (Pipeline.withArrays (cfgs 0).spec c (V0 m c) (fun w => (dats m 0 c).arrAt w (cfgs 0).N)
      (Proc.tc.devRef main_v0)) shapeCasts_S16x128x128x128_S16x16384x128 i = _
  rw [e]

/-- THE KERNEL'S RUN: every weakly fair execution terminates with the result buffer at the specification of the
    argument arrays, and those unchanged. -/
theorem run : θ_run defs (onTc (τ := τ) (main (F := Ideal))) ⟨m, fun _ => 0, ρ⟩ fun r => ∀ c : Dev nD,
      r.2.mem ((c : Thread nD τ).loc main_v1)
        = result (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c =>
    ⟨((h c).2 main_v1 result_bypasses).trans ((tail_eq m c).trans (flatten_grid _ _ _ _)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.RunValue

end
-- ==== Proof.RefNorm.lean ====
/-
  The reference, read at an index, is `ExpandNorm.result`.

  Its product has shape [16, 4096, 512]; the reshape to [16, 64, 64, 2, 2, 128], the exchange of axes 2 and 3 and
  the reshape to [16, 16384, 128] put entry (b, h * 64 + w, (p1 * 2 + p2) * 128 + c) at
  (b, ((h * 2 + p1) * 64 + w) * 2 + p2, c): output pixel `L` reads source pixel `srcPixel L` and channel
  `srcChannel L c`. The rest is the normalisation of each row of 128 channels, stage by stage: sums from the zero
  word, quotients by 128.0, the reciprocal square root, the per-channel scale and shift.
-/
import proofs.«156656_j1425929142550_1_alg».proof.Proof.Gen.ReferenceIdeal.Read
import proofs.«156656_j1425929142550_1_alg».proof.Proof.ExpandNorm
import Idealize.ShloMosaic.Lib.Pipeline.Value
import Idealize.ShloMosaic.Lib.ValueIdx
import Idealize.ShloMosaic.Lib.ValueIdxRank6
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open Cert.ExpandNorm

variable (x0 : (⟨S16x4096x256, .f32⟩ : BufTy).Contents (Elt Ideal)) (x1 : (⟨S512x256, .f32⟩ : BufTy).Contents (Elt Ideal))

/-- The 128 channels of output pixel `L` of image `b`, before normalisation. -/
def outRow (b : Fin 16) (L : Fin 16384) : Fin 128 → EReal :=
  fun k => expand x0 x1 b (srcPixel L) (srcChannel L k)

/-- The rearranged product at (b, L, c). -/
theorem shuffled_apply (b : Fin 16) (L : Fin 16384) (c : Fin 128) :
    val_main_v3 (F := Ideal) x0 x1 (ix3 b L c) = outRow x0 x1 b L c := by
  have hL := L.isLt
  unfold val_main_v3
  refine (shapeCast_apply _ _ (ix3 b L c)
    (ix6 b (⟨L.val / 256, by omega⟩ : Fin 64) (⟨(L.val / 128) % 2, by omega⟩ : Fin 2) (⟨(L.val % 128) / 2, by omega⟩ : Fin 64)
      (⟨L.val % 2, by omega⟩ : Fin 2) c) ?_).trans ?_
  · rw [Shape.rowMajor_val_six, Shape.rowMajor_val_three]
    show ((((b.val * 64 + L.val / 256) * 2 + (L.val / 128) % 2) * 64 + (L.val % 128) / 2) * 2 + L.val % 2) * 128 + c.val
      = (b.val * 16384 + L.val) * 128 + c.val
    omega
  rw [val_main_v2_apply]
  unfold val_main_v1
  refine (shapeCast_apply _ _ _ (ix3 b (srcPixel L) (srcChannel L c)) ?_).trans ?_
  · rw [Shape.rowMajor_val_three, Shape.rowMajor_val_six]
    show (b.val * 4096 + ((L.val / 256) * 64 + (L.val % 128) / 2)) * 512 + (((L.val / 128) % 2) * 256 + (L.val % 2) * 128 + c.val)
      = ((((b.val * 64 + L.val / 256) * 64 + (L.val % 128) / 2) * 2 + (L.val / 128) % 2) * 2 + L.val % 2) * 128 + c.val
    omega
  rw [val_main_v0_apply]
  unfold outRow expand
  refine Finset.sum_congr rfl fun k _ => ?_
  have el : lidx_main_v0 (ix3 b (srcPixel L) (srcChannel L c)) k = ix3 b (srcPixel L) k :=
    funext fun a => match a with | ⟨0, _⟩ => rfl | ⟨1, _⟩ => rfl | ⟨2, _⟩ => rfl
  have er : ridx_main_v0 (ix3 b (srcPixel L) (srcChannel L c)) k = ix2 (srcChannel L c) k :=
    funext fun a => match a with | ⟨0, _⟩ => rfl | ⟨1, _⟩ => rfl
  rw [el, er]

/-! ## The stages' index maps at coordinates -/

theorem toRow (b : Fin 16) (L : Fin 16384) (c : Fin 128) : idx_main_v8 (ix3 b L c) = ix3 b L (0 : Fin 1) :=
  funext fun a => match a with | ⟨0, _⟩ => rfl | ⟨1, _⟩ => rfl | ⟨2, _⟩ => rfl
theorem toRow' (b : Fin 16) (L : Fin 16384) (c : Fin 128) : idx_main_v15 (ix3 b L c) = ix3 b L (0 : Fin 1) :=
  funext fun a => match a with | ⟨0, _⟩ => rfl | ⟨1, _⟩ => rfl | ⟨2, _⟩ => rfl
theorem toRow'' (b : Fin 16) (L : Fin 16384) (c : Fin 128) : idx_main_v20 (ix3 b L c) = ix3 b L (0 : Fin 1) :=
  funext fun a => match a with | ⟨0, _⟩ => rfl | ⟨1, _⟩ => rfl | ⟨2, _⟩ => rfl
theorem dropUnit (b : Fin 16) (L : Fin 16384) : idx_main_v5 (ix3 b L (0 : Fin 1)) = ix2 b L :=
  funext fun a => match a with | ⟨0, _⟩ => rfl | ⟨1, _⟩ => rfl
theorem dropUnit' (b : Fin 16) (L : Fin 16384) : idx_main_v12 (ix3 b L (0 : Fin 1)) = ix2 b L :=
  funext fun a => match a with | ⟨0, _⟩ => rfl | ⟨1, _⟩ => rfl
theorem lane (b : Fin 16) (L : Fin 16384) (k : Fin 128) : idx_main_v4 (ix2 b L) k = ix3 b L k :=
  funext fun a => match a with | ⟨0, _⟩ => rfl | ⟨1, _⟩ => rfl | ⟨2, _⟩ => rfl
theorem lane' (b : Fin 16) (L : Fin 16384) (k : Fin 128) : idx_main_v11 (ix2 b L) k = ix3 b L k :=
  funext fun a => match a with | ⟨0, _⟩ => rfl | ⟨1, _⟩ => rfl | ⟨2, _⟩ => rfl
theorem toChannel (b : Fin 16) (L : Fin 16384) (c : Fin 128) : idx_main_v23 (ix3 b L c) = ix3 (0 : Fin 1) (0 : Fin 1) c :=
  funext fun a => match a with | ⟨0, _⟩ => rfl | ⟨1, _⟩ => rfl | ⟨2, _⟩ => rfl
theorem toChannel' (b : Fin 16) (L : Fin 16384) (c : Fin 128) : idx_main_v26 (ix3 b L c) = ix3 (0 : Fin 1) (0 : Fin 1) c :=
  funext fun a => match a with | ⟨0, _⟩ => rfl | ⟨1, _⟩ => rfl | ⟨2, _⟩ => rfl
theorem channel (c : Fin 128) : idx_main_v22 (ix3 (0 : Fin 1) (0 : Fin 1) c) = ix1 c :=
  funext fun a => match a with | ⟨0, _⟩ => rfl
theorem channel' (c : Fin 128) : idx_main_v25 (ix3 (0 : Fin 1) (0 : Fin 1) c) = ix1 c :=
  funext fun a => match a with | ⟨0, _⟩ => rfl

/-! ## The normalisation, stage by stage -/

/-- The row's mean. -/
theorem mean_apply (b : Fin 16) (L : Fin 16384) :
    val_main_v7 (F := Ideal) x0 x1 (ix3 b L (0 : Fin 1)) = mean (outRow x0 x1 b L) := by
  rw [val_main_v7_apply, val_main_v5_apply, dropUnit, val_main_v4_apply, val_main_v6_apply, val_main_cst_0_apply, val_main_cst_apply]
  simp only [lane, shuffled_apply]
  show Ideal.div (Ideal.ofBits .f32 0x00000000#32 + ∑ k : Fin 128, outRow x0 x1 b L k) width = Ideal.div (∑ k : Fin 128, outRow x0 x1 b L k) width
  rw [Ideal.ofBits_zero_f32, zero_add]

/-- The row centred at its mean (the copy the variance reads, and the copy the result reads). -/
theorem centred_apply (b : Fin 16) (L : Fin 16384) (k : Fin 128) :
    val_main_v9 (F := Ideal) x0 x1 (ix3 b L k) = outRow x0 x1 b L k - mean (outRow x0 x1 b L) := by
  rw [val_main_v9_apply, val_main_v8_apply, toRow, mean_apply, shuffled_apply]
  rfl
theorem centred_apply' (b : Fin 16) (L : Fin 16384) (k : Fin 128) :
    val_main_v16 (F := Ideal) x0 x1 (ix3 b L k) = outRow x0 x1 b L k - mean (outRow x0 x1 b L) := by
  rw [val_main_v16_apply, val_main_v15_apply, toRow', mean_apply, shuffled_apply]
  rfl

/-- The row's variance. -/
theorem variance_apply (b : Fin 16) (L : Fin 16384) :
    val_main_v14 (F := Ideal) x0 x1 (ix3 b L (0 : Fin 1))
      = Ideal.div (∑ k : Fin 128, (outRow x0 x1 b L k - mean (outRow x0 x1 b L)) * (outRow x0 x1 b L k - mean (outRow x0 x1 b L))) width := by
  rw [val_main_v14_apply, val_main_v12_apply, dropUnit', val_main_v11_apply, val_main_v13_apply, val_main_cst_2_apply, val_main_cst_1_apply]
  simp only [lane', val_main_v10_apply, centred_apply]
  show Ideal.div (Ideal.ofBits .f32 0x00000000#32 + ∑ k : Fin 128, (outRow x0 x1 b L k - mean (outRow x0 x1 b L)) * (outRow x0 x1 b L k - mean (outRow x0 x1 b L))) width = _
  rw [Ideal.ofBits_zero_f32, zero_add]

/-- The reciprocal square root of variance plus epsilon, spread over the channels. -/
theorem factor_apply (b : Fin 16) (L : Fin 16384) (c : Fin 128) :
    val_main_v20 (F := Ideal) x0 x1 (ix3 b L c)
      = Ideal.rsqrt (Ideal.div (∑ k : Fin 128, (outRow x0 x1 b L k - mean (outRow x0 x1 b L)) * (outRow x0 x1 b L k - mean (outRow x0 x1 b L))) width + eps) := by
  rw [val_main_v20_apply, toRow'', val_main_v19_apply, val_main_v18_apply, variance_apply, val_main_v17_apply, val_main_cst_3_apply]
  rfl

variable (x2 x3 : (⟨S128, .f32⟩ : BufTy).Contents (Elt Ideal))

/-- The reference's result at (b, L, c). -/
theorem result_apply (b : Fin 16) (L : Fin 16384) (c : Fin 128) :
    val_main_v27 (F := Ideal) x0 x1 x2 x3 (ix3 b L c) = resultAt x0 x1 x2 x3 b L c := by
  rw [val_main_v27_apply, val_main_v24_apply, val_main_v21_apply, centred_apply', factor_apply, val_main_v23_apply, toChannel,
    val_main_v22_apply, channel, val_main_v26_apply, toChannel', val_main_v25_apply, channel']
  rfl

/-- THE REFERENCE IS THE SPECIFICATION. -/
theorem reference_eq : val_main_v27 (F := Ideal) x0 x1 x2 x3 = result x0 x1 x2 x3 := by
  funext i
  obtain ⟨b, L, c, rfl⟩ : ∃ (b : Fin 16) (L : Fin 16384) (c : Fin 128), i = ix3 b L c := ⟨i 0, i 1, i 2, eq_ix3 i⟩
  exact result_apply x0 x1 x2 x3 b L c

end Cert.ReferenceIdeal.RefValue

end
-- ==== Proof.lean ====
/-
  A patch-expanding linear layer with layer normalisation, as one Pallas kernel, against its jnp reference.

  Both programs compute, for image `b`, output pixel `L` and channel `c`, the normalisation over 128 channels of the
  depth-to-space rearrangement of `x @ wᵀ` (Proof/ExpandNorm.lean states it). The kernel does so block by block
  on a 16 x 4 grid — a matrix product into the zero array, four channel groups interleaved by pixel columns and
  rows, lane sums over 128.0, a reciprocal square root, scale and shift — and reshapes the output array on the
  host; the reference does it on whole arrays, with a reshape / transpose / reshape for the rearrangement. On the
  extended reals the matrix products are plain sums over the shared axis, the kernel's narrowing of the product's
  operands is the identity, and all other operations and constants are the same on both sides in the same order,
  so no algebraic law beyond the re-indexing is used and the inputs' finiteness is never opened.

  Proof/BlockShuffle.lean, BlockNorm.lean, BlockResult.lean: what one grid point stores, read at an index.
  Proof/ArrayValue.lean, KernelRun.lean: the output array from its blocks, the host reshape, the kernel's run.
  Proof/RefNorm.lean: the reference read at an index.
  The three frames are the generated ones (the reference's is its generated run with the result dropped); the
  idealisation rewrote nothing, so `preserves` is trivial.
-/
import proofs.«156656_j1425929142550_1_alg».proof.Defs
import proofs.«156656_j1425929142550_1_alg».proof.Proof.Gen.Kernel
import proofs.«156656_j1425929142550_1_alg».proof.Proof.Gen.Kernel.Skeleton
import proofs.«156656_j1425929142550_1_alg».proof.Proof.Gen.Kernel.Launch
import proofs.«156656_j1425929142550_1_alg».proof.Proof.Gen.Kernel.Points
import proofs.«156656_j1425929142550_1_alg».proof.Proof.Gen.Kernel.Frame
import proofs.«156656_j1425929142550_1_alg».proof.Proof.Gen.KernelIdeal
import proofs.«156656_j1425929142550_1_alg».proof.Proof.Gen.KernelIdeal.Skeleton
import proofs.«156656_j1425929142550_1_alg».proof.Proof.Gen.KernelIdeal.Launch
import proofs.«156656_j1425929142550_1_alg».proof.Proof.Gen.KernelIdeal.Points
import proofs.«156656_j1425929142550_1_alg».proof.Proof.Gen.KernelIdeal.Frame
import proofs.«156656_j1425929142550_1_alg».proof.Proof.Gen.ReferenceIdeal
import proofs.«156656_j1425929142550_1_alg».proof.Proof.Gen.Pre_finite_inputs
import proofs.«156656_j1425929142550_1_alg».proof.Proof.Gen.ReferenceIdeal.Run
import proofs.«156656_j1425929142550_1_alg».proof.Proof.Gen.ReferenceIdeal.Read
import proofs.«156656_j1425929142550_1_alg».proof.Proof.KernelRun
import proofs.«156656_j1425929142550_1_alg».proof.Proof.RefNorm
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at `ExpandNorm.result` of argument arrays that agree. -/
theorem algebraic : Cert.algebraic_KernelIdeal_ReferenceIdeal := by
  intro m ρ m' ρ' _ hagree
  refine ⟨fun c => Cert.ExpandNorm.result (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3)),
    Cert.KernelIdeal.RunValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v27_eq, Cert.ReferenceIdeal.RefValue.reference_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
